-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S2x16384 : Shape := ⟨2, ![2, 16384]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S2x16384 : S_.BroadcastsInDim S2x16384 (![] : Fin 0 → Fin S2x16384.rank)
  reducesTo_S2x16384_S_d0_1 : S2x16384.ReducesTo [0, 1] S_

variable [Facts]

def fn {F : FTy → Type} [FloatOps F] (main_arg0 : FVec F S2048x32768 .f32) (main_arg1 : IVec S2x16384 32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_c_0 : IVec S_ 32 := constantI S_ 32 4294950912#32
  let main_v4 : IVec S2x16384 32 := broadcastInDim S2x16384 ![] bcast_S_S2x16384 main_c_0
  let main_v5 : IVec S2x16384 1 := cmpi .sge main_arg1 main_v4
  let main_c_1 : IVec S_ 32 := constantI S_ 32 16384#32
  let main_v6 : IVec S2x16384 32 := broadcastInDim S2x16384 ![] bcast_S_S2x16384 main_c_1
  let main_v7 : IVec S2x16384 1 := cmpi .slt main_arg1 main_v6
  let main_v8 : IVec S2x16384 1 := andi main_v5 main_v7
  let main_c_2 : IVec S_ 1 := constantI S_ 1 1#1
  let main_v9 : IVec S_ 1 := (fun x v => Host.reduce IntOp.andi x v reducesTo_S2x16384_S_d0_1 h_S_) main_v8 main_c_2
  let main_v10 : IVec S_ 1 := andi main_v3 main_v9
  main_v10
-- ==== Kernel.lean ====
abbrev S2048x32768 : Shape := ⟨2, ![2048, 32768]⟩
abbrev S2x16384 : Shape := ⟨2, ![2, 16384]⟩
abbrev S2048x2x16384 : Shape := ⟨3, ![2048, 2, 16384]⟩
abbrev S2048x1x16384 : Shape := ⟨3, ![2048, 1, 16384]⟩
abbrev S2048x16384 : Shape := ⟨2, ![2048, 16384]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S2048x1 : Shape := ⟨2, ![2048, 1]⟩
abbrev S256x1024 : Shape := ⟨2, ![256, 1024]⟩
abbrev S256x1 : Shape := ⟨2, ![256, 1]⟩
abbrev S256 : Shape := ⟨1, ![256]⟩

abbrev nBuf : Space → Nat
  | .hbm => 104
  | .vmem => 15
  | .smem => 0
  | _ => 0

abbrev bufTy : (tb : Table) → Fin (tcTables nBuf tb) → BufTy
  | .hbm, ⟨0, _⟩ => ⟨S2048x32768, .f32⟩
  | .hbm, ⟨1, _⟩ => ⟨S2x16384, .i32⟩
  | .hbm, ⟨2, _⟩ => ⟨S2048x2x16384, .f32⟩
  | .hbm, ⟨3, _⟩ => ⟨S2048x1x16384, .f32⟩
  | .hbm, ⟨4, _⟩ => ⟨S2048x16384, .f32⟩
  | .hbm, ⟨5, _⟩ => ⟨S2048x1x16384, .f32⟩
  | .hbm, ⟨6, _⟩ => ⟨S2048x16384, .f32⟩
  | .hbm, ⟨7, _⟩ => ⟨S1x16384, .i32⟩
  | .hbm, ⟨8, _⟩ => ⟨S16384, .i32⟩
  | .hbm, ⟨9, _⟩ => ⟨S1x16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384x1, .i32⟩
  | .hbm, ⟨19, _⟩ => ⟨S1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S1x1, .i32⟩
  | .hbm, ⟨24, _⟩ => ⟨S16384x1, .i32⟩
  | .hbm, ⟨25, _⟩ => ⟨S16384x1, .i1⟩
  | .hbm, ⟨26, _⟩ => ⟨S16384x1, .i1⟩
  | .hbm, ⟨27, _⟩ => ⟨S_, .i1⟩
  | .hbm, ⟨28, _⟩ => ⟨S16384, .i1⟩
  | .hbm, ⟨29, _⟩ => ⟨S2048x16384, .f32⟩
  | .hbm, ⟨30, _⟩ => ⟨S2048x16384, .i1⟩
  | .hbm, ⟨31, _⟩ => ⟨S_, .f32⟩
  | .hbm, ⟨32, _⟩ => ⟨S2048x16384, .f32⟩
  | .hbm, ⟨33, _⟩ => ⟨S2048x16384, .f32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S1, .i32⟩
  | .hbm, ⟨43, _⟩ => ⟨S_, .i32⟩
  | .hbm, ⟨44, _⟩ => ⟨S16384x1, .i32⟩
  | .hbm, ⟨45, _⟩ => ⟨S16384x1, .i1⟩
  | .hbm, ⟨46, _⟩ => ⟨S1x1, .i32⟩
  | .hbm, ⟨47, _⟩ => ⟨S16384x1, .i32⟩
  | .hbm, ⟨48, _⟩ => ⟨S16384x1, .i1⟩
  | .hbm, ⟨49, _⟩ => ⟨S16384x1, .i1⟩
  | .hbm, ⟨50, _⟩ => ⟨S_, .i1⟩
  | .hbm, ⟨51, _⟩ => ⟨S16384, .i1⟩
  | .hbm, ⟨52, _⟩ => ⟨S2048x16384, .f32⟩
  | .hbm, ⟨53, _⟩ => ⟨S2048x16384, .i1⟩
  | .hbm, ⟨54, _⟩ => ⟨S_, .f32⟩
  | .hbm, ⟨55, _⟩ => ⟨S2048x16384, .f32⟩
  | .hbm, ⟨56, _⟩ => ⟨S2048x16384, .f32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S16384x1, .i32⟩
  | .hbm, ⟨65, _⟩ => ⟨S1, .i32⟩
  | .hbm, ⟨66, _⟩ => ⟨S_, .i32⟩
  | .hbm, ⟨67, _⟩ => ⟨S16384x1, .i32⟩
  | .hbm, ⟨68, _⟩ => ⟨S16384x1, .i1⟩
  | .hbm, ⟨69, _⟩ => ⟨S1x1, .i32⟩
  | .hbm, ⟨70, _⟩ => ⟨S16384x1, .i32⟩
  | .hbm, ⟨71, _⟩ => ⟨S16384x1, .i1⟩
  | .hbm, ⟨72, _⟩ => ⟨S16384x1, .i1⟩
  | .hbm, ⟨73, _⟩ => ⟨S_, .i1⟩
  | .hbm, ⟨74, _⟩ => ⟨S16384, .i1⟩
  | .hbm, ⟨75, _⟩ => ⟨S2048x16384, .f32⟩
  | .hbm, ⟨76, _⟩ => ⟨S2048x16384, .i1⟩
  | .hbm, ⟨77, _⟩ => ⟨S_, .f32⟩
  | .hbm, ⟨78, _⟩ => ⟨S2048x16384, .f32⟩
  | .hbm, ⟨79, _⟩ => ⟨S2048x16384, .f32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S1, .i32⟩
  | .hbm, ⟨89, _⟩ => ⟨S_, .i32⟩
  | .hbm, ⟨90, _⟩ => ⟨S16384x1, .i32⟩
  | .hbm, ⟨91, _⟩ => ⟨S16384x1, .i1⟩
  | .hbm, ⟨92, _⟩ => ⟨S1x1, .i32⟩
  | .hbm, ⟨93, _⟩ => ⟨S16384x1, .i32⟩
  | .hbm, ⟨94, _⟩ => ⟨S16384x1, .i1⟩
  | .hbm, ⟨95, _⟩ => ⟨S16384x1, .i1⟩
  | .hbm, ⟨96, _⟩ => ⟨S_, .i1⟩
  | .hbm, ⟨97, _⟩ => ⟨S16384, .i1⟩
  | .hbm, ⟨98, _⟩ => ⟨S2048x16384, .f32⟩
  | .hbm, ⟨99, _⟩ => ⟨S2048x16384, .i1⟩
  | .hbm, ⟨100, _⟩ => ⟨S_, .f32⟩
  | .hbm, ⟨101, _⟩ => ⟨S2048x16384, .f32⟩
  | .hbm, ⟨102, _⟩ => ⟨S2048x16384, .f32⟩
  | .hbm, ⟨103, _⟩ => ⟨S2048x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v9 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v10 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v11 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v12 : Ref sig .tc := ⟨.hbm, 102, rfl⟩
abbrev main_v13 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2048x32768_S2048x2x16384 : S2048x32768.ShapeCasts S2048x2x16384
  slices_S2048x2x16384_S2048x1x16384_0_0_0 : S2048x2x16384.Slices ![0, 0, 0] S2048x1x16384
  shapeCasts_S2048x1x16384_S2048x16384 : S2048x1x16384.ShapeCasts S2048x16384
  slices_S2048x2x16384_S2048x1x16384_0_1_0 : S2048x2x16384.Slices ![0, 1, 0] S2048x1x16384
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S2048x16384_1 : S16384.BroadcastsInDim S2048x16384 (![1] : Fin 1 → Fin S2048x16384.rank)
  bcast_S_S2048x16384 : S_.BroadcastsInDim S2048x16384 (![] : Fin 0 → Fin S2048x16384.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  gather_S2048x16384_S16384x1_S2048x16384_0_1_n_n_1_1_20481_wf : GatherDims.WF S2048x16384 S16384x1 S2048x16384 [0] [1] [] [1] [] 1 ![2048, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x16384.size a
  hwx0_0 : ∀ i : grid0.Coords, EltTy.bits .f32 = 32 ∨ (Rect.block (s := S2048x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x16384.size a
  hwx0_1 : ∀ i : grid0.Coords, EltTy.bits .f32 = 32 ∨ (Rect.block (s := S2048x16384) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x16384.size a
  hwx0_2 : ∀ i : grid0.Coords, EltTy.bits .f32 = 32 ∨ (Rect.block (s := S2048x16384) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x16384.size a
  hwx0_3 : ∀ i : grid0.Coords, EltTy.bits .f32 = 32 ∨ (Rect.block (s := S2048x16384) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x16384.size a
  hwx0_4 : ∀ i : grid0.Coords, EltTy.bits .f32 = 32 ∨ (Rect.block (s := S2048x16384) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x16384.size a
  hwx0_5 : ∀ i : grid0.Coords, EltTy.bits .f32 = 32 ∨ (Rect.block (s := S2048x16384) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)

variable [Facts₀]

def gather_S2048x16384_S16384x1_S2048x16384_0_1_n_n_1_1_20481 : GatherDims S2048x16384 S16384x1 S2048x16384 where
  offsetDims := [0]
  collapsedSliceDims := [1]
  operandBatchingDims := []
  startIndicesBatchingDims := []
  startIndexMap := [1]
  indexVectorDim := 1
  sliceSizes := ![2048, 1]
  wf := gather_S2048x16384_S16384x1_S2048x16384_0_1_n_n_1_1_20481_wf

abbrev win0_0 : Pipeline.Window sig grid0 :=
  Pipeline.Window.ofSpec (Memref.whole main_v2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S256x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2048x32768 : Shape := ⟨2, ![2048, 32768]⟩
abbrev S2x16384 : Shape := ⟨2, ![2, 16384]⟩
abbrev S2048x2x16384 : Shape := ⟨3, ![2048, 2, 16384]⟩
abbrev S2048x1x16384 : Shape := ⟨3, ![2048, 1, 16384]⟩
abbrev S2048x16384 : Shape := ⟨2, ![2048, 16384]⟩
abbrev S_ : Shape := ⟨0, ![]⟩
abbrev S2x16384x1 : Shape := ⟨3, ![2, 16384, 1]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S2x16384, .i32⟩
  | .hbm, ⟨2, _⟩ => ⟨S2048x2x16384, .f32⟩
  | .hbm, ⟨3, _⟩ => ⟨S2048x1x16384, .f32⟩
  | .hbm, ⟨4, _⟩ => ⟨S2048x16384, .f32⟩
  | .hbm, ⟨5, _⟩ => ⟨S2048x1x16384, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .i32⟩
  | .hbm, ⟨10, _⟩ => ⟨S2x16384, .i32⟩
  | .hbm, ⟨11, _⟩ => ⟨S2x16384, .i1⟩
  | .hbm, ⟨12, _⟩ => ⟨S_, .i32⟩
  | .hbm, ⟨13, _⟩ => ⟨S2x16384, .i32⟩
  | .hbm, ⟨14, _⟩ => ⟨S2x16384, .i32⟩
  | .hbm, ⟨15, _⟩ => ⟨S2x16384, .i32⟩
  | .hbm, ⟨16, _⟩ => ⟨S2x16384x1, .i32⟩
  | .hbm, ⟨17, _⟩ => ⟨S2048x2x16384, .f32⟩
  | .hbm, ⟨18, _⟩ => ⟨S_, .i32⟩
  | .hbm, ⟨19, _⟩ => ⟨S2x16384, .i32⟩
  | .hbm, ⟨20, _⟩ => ⟨S2x16384, .i1⟩
  | .hbm, ⟨21, _⟩ => ⟨S_, .i32⟩
  | .hbm, ⟨22, _⟩ => ⟨S2x16384, .i32⟩
  | .hbm, ⟨23, _⟩ => ⟨S2x16384, .i32⟩
  | .hbm, ⟨24, _⟩ => ⟨S2x16384, .i32⟩
  | .hbm, ⟨25, _⟩ => ⟨S2x16384x1, .i32⟩
  | .hbm, ⟨26, _⟩ => ⟨S2048x2x16384, .f32⟩
  | .hbm, ⟨27, _⟩ => ⟨S_, .i32⟩
  | .hbm, ⟨28, _⟩ => ⟨S2x16384, .i32⟩
  | .hbm, ⟨29, _⟩ => ⟨S2x16384, .i1⟩
  | .hbm, ⟨30, _⟩ => ⟨S_, .i32⟩
  | .hbm, ⟨31, _⟩ => ⟨S2x16384, .i32⟩
  | .hbm, ⟨32, _⟩ => ⟨S2x16384, .i32⟩
  | .hbm, ⟨33, _⟩ => ⟨S2x16384, .i32⟩
  | .hbm, ⟨34, _⟩ => ⟨S2x16384x1, .i32⟩
  | .hbm, ⟨35, _⟩ => ⟨S2048x2x16384, .f32⟩
  | .hbm, ⟨36, _⟩ => ⟨S2048x1x16384, .f32⟩
  | .hbm, ⟨37, _⟩ => ⟨S2048x2x16384, .f32⟩
  | .hbm, ⟨38, _⟩ => ⟨S2048x2x16384, .f32⟩
  | .hbm, ⟨39, _⟩ => ⟨S2048x1x16384, .f32⟩
  | .hbm, ⟨40, _⟩ => ⟨S2048x2x16384, .f32⟩
  | .hbm, ⟨41, _⟩ => ⟨S2048x2x16384, .f32⟩
  | .hbm, ⟨42, _⟩ => ⟨S2048x1x16384, .f32⟩
  | .hbm, ⟨43, _⟩ => ⟨S2048x2x16384, .f32⟩
  | .hbm, ⟨44, _⟩ => ⟨S2048x2x16384, .f32⟩
  | .hbm, ⟨45, _⟩ => ⟨S2048x2x16384, .f32⟩
  | .hbm, ⟨46, _⟩ => ⟨S2048x2x16384, .f32⟩
  | .hbm, ⟨47, _⟩ => ⟨S2048x2x16384, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  shapeCasts_S2048x32768_S2048x2x16384 : S2048x32768.ShapeCasts S2048x2x16384
  slices_S2048x2x16384_S2048x1x16384_0_0_0 : S2048x2x16384.Slices ![0, 0, 0] S2048x1x16384
  shapeCasts_S2048x1x16384_S2048x16384 : S2048x1x16384.ShapeCasts S2048x16384
  slices_S2048x2x16384_S2048x1x16384_0_1_0 : S2048x2x16384.Slices ![0, 1, 0] S2048x1x16384
  bcast_S_S2x16384 : S_.BroadcastsInDim S2x16384 (![] : Fin 0 → Fin S2x16384.rank)
  bcast_S2x16384_S2x16384x1_0_1 : S2x16384.BroadcastsInDim S2x16384x1 (![0, 1] : Fin 2 → Fin S2x16384x1.rank)
  bcast_S2048x16384_S2048x1x16384_0_2 : S2048x16384.BroadcastsInDim S2048x1x16384 (![0, 2] : Fin 2 → Fin S2048x1x16384.rank)
  bcast_S2048x1x16384_S2048x2x16384_0_1_2 : S2048x1x16384.BroadcastsInDim S2048x2x16384 (![0, 1, 2] : Fin 3 → Fin S2048x2x16384.rank)
  reducesTo_S2048x2x16384_S2048_d1_2 : S2048x2x16384.ReducesTo [1, 2] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  gather_S2048x16384_S2x16384x1_S2048x2x16384_0_1_n_n_1_2_20481_wf : GatherDims.WF S2048x16384 S2x16384x1 S2048x2x16384 [0] [1] [] [1] [] 2 ![2048, 1]

variable [Facts₀]

def gather_S2048x16384_S2x16384x1_S2048x2x16384_0_1_n_n_1_2_20481 : GatherDims S2048x16384 S2x16384x1 S2048x2x16384 where
  offsetDims := [0]
  collapsedSliceDims := [1]
  operandBatchingDims := []
  startIndicesBatchingDims := []
  startIndexMap := [1]
  indexVectorDim := 2
  sliceSizes := ![2048, 1]
  wf := gather_S2048x16384_S2x16384x1_S2048x2x16384_0_1_n_n_1_2_20481_wf

class Facts : Prop extends Facts₀ where

variable [Facts]
-- ==== Proof.Neighbour.lean ====
/-
  The neighbour column of a lattice site, as both programs compute it from one entry `b` of the shift table.

  Both programs first wrap a negative entry once (`b + 16384` when `b < 0`, else `b`), and both then hand the
  wrapped word to a gather along the lattice axis of a [2048, 16384] array, which reads the word as a signed integer
  and clamps it into [0, 16383]. So the column a site's neighbour is read from is `nbrCol b`, the clamped wrapped
  word, on both sides, for every `b`. What needs the entry to be a legal index, -16384 ≤ b < 16384, is only the
  kernel's range test of the wrapped word (0 ≤ w and w ≤ 16383), which then holds.

  The two gathers differ in the shape of their start indices — a column [16384, 1] per direction in the kernel, the
  whole table [2, 16384, 1] in the reference — and are read at an index here, over dimension numbers spelled out.
-/
import Idealize.ShloMosaic.PureOps
import Idealize.ShloMosaic.Lib.ValueIdx

noncomputable section

namespace Cert.Lattice

open Idealize.ShloMosaic Idealize.ShloMosaic.ValueIdx

/-! ## The wrapped word and its clamp -/

/-- One wrap of a negative entry: `b + 16384` if `b < 0` (signed), else `b`. -/
def wrapWord (b : BitVec 32) : BitVec 32 :=
  Scalar.select (IntOp.cmpi .slt b 0#32) (IntOp.addi b 16384#32) b

/-- A word read signed and clamped into the lattice axis. -/
def clampCol (b : BitVec 32) : Fin 16384 := ⟨min b.toInt.toNat 16383, by omega⟩

/-- The column a neighbour is read from. -/
def nbrCol (b : BitVec 32) : Fin 16384 := clampCol (wrapWord b)

theorem cmpi_slt (x y : BitVec 32) : IntOp.cmpi .slt x y = BitVec.ofBool (x.slt y) := rfl
theorem cmpi_sle (x y : BitVec 32) : IntOp.cmpi .sle x y = BitVec.ofBool (x.sle y) := rfl
theorem cmpi_sge (x y : BitVec 32) : IntOp.cmpi .sge x y = BitVec.ofBool (y.sle x) := rfl

theorem toInt_wrapWord (b : BitVec 32) (h1 : -16384 ≤ b.toInt) (h2 : b.toInt < 16384) :
    0 ≤ (wrapWord b).toInt ∧ (wrapWord b).toInt ≤ 16383 := by
  unfold wrapWord Scalar.select IntOp.addi
  rw [cmpi_slt]
  by_cases hneg : b.toInt < 0
  · have hs : b.slt 0#32 = true := by
      rw [BitVec.slt_eq_decide]; simpa using hneg
    rw [hs, if_pos (by decide : BitVec.ofBool true = 1)]
    have e : (b + 16384#32).toInt = b.toInt + 16384 := by
      rw [BitVec.toInt_add, show (16384#32 : BitVec 32).toInt = 16384 from by decide, Int.bmod_def]
      split <;> omega
    rw [e]; omega
  · have hs : b.slt 0#32 = false := by
      rw [BitVec.slt_eq_decide]; simpa using hneg
    rw [hs, if_neg (by decide : ¬BitVec.ofBool false = 1)]
    omega

/-- The wrapped word of a legal index passes the lower range test … -/
theorem wrapWord_sge (b : BitVec 32) (h1 : -16384 ≤ b.toInt) (h2 : b.toInt < 16384) :
    IntOp.cmpi .sge (wrapWord b) 0#32 = 1#1 := by
  have h := (toInt_wrapWord b h1 h2).1
  rw [cmpi_sge]
  have : (0#32 : BitVec 32).sle (wrapWord b) = true := by
    rw [BitVec.sle_eq_decide]; simpa using h
  rw [this]; rfl

/-- … and the upper one. -/
theorem wrapWord_sle (b : BitVec 32) (h1 : -16384 ≤ b.toInt) (h2 : b.toInt < 16384) :
    IntOp.cmpi .sle (wrapWord b) 16383#32 = 1#1 := by
  have h := (toInt_wrapWord b h1 h2).2
  rw [cmpi_sle]
  have : (wrapWord b).sle (16383#32 : BitVec 32) = true := by
    rw [BitVec.sle_eq_decide, show (16383#32 : BitVec 32).toInt = 16383 from by decide]; simpa using h
  rw [this]; rfl

/-- What the stated domain of the shift table says of one entry, read off the two printed compares. -/
theorem range_of_cmp (b : BitVec 32) (hge : IntOp.cmpi .sge b 4294950912#32 = 1#1)
    (hlt : IntOp.cmpi .slt b 16384#32 = 1#1) : -16384 ≤ b.toInt ∧ b.toInt < 16384 := by
  rw [cmpi_sge] at hge
  rw [cmpi_slt] at hlt
  constructor
  · have : (4294950912#32 : BitVec 32).sle b = true := by
      cases h : (4294950912#32 : BitVec 32).sle b
      · rw [h] at hge; exact absurd hge (by decide)
      · rfl
    rw [BitVec.sle_eq_decide, show (4294950912#32 : BitVec 32).toInt = -16384 from by decide] at this
    simpa using this
  · have : b.slt (16384#32 : BitVec 32) = true := by
      cases h : b.slt (16384#32 : BitVec 32)
      · rw [h] at hlt; exact absurd hlt (by decide)
      · rfl
    rw [BitVec.slt_eq_decide, show (16384#32 : BitVec 32).toInt = 16384 from by decide] at this
    simpa using this

/-! ## The two gathers, read at an index -/

/-- An angle array: one row per sample, one column per lattice site. -/
abbrev SAng : Shape := ⟨2, ![2048, 16384]⟩
/-- One direction's start indices, as a column. -/
abbrev SCol : Shape := ⟨2, ![16384, 1]⟩
/-- Both directions' start indices. -/
abbrev SPair : Shape := ⟨3, ![2, 16384, 1]⟩
/-- Neighbour values: sample, direction, site. -/
abbrev SNb : Shape := ⟨3, ![2048, 2, 16384]⟩

/-- The kernel's gather: whole rows kept (offset axis 0), the lattice axis collapsed and start-indexed, the index
    vector on axis 1 of the column. -/
abbrev dimsCol (wf : GatherDims.WF SAng SCol SAng [0] [1] [] [1] [] 1 ![2048, 1]) : GatherDims SAng SCol SAng where
  offsetDims := [0]
  collapsedSliceDims := [1]
  operandBatchingDims := []
  startIndicesBatchingDims := []
  startIndexMap := [1]
  indexVectorDim := 1
  sliceSizes := ![2048, 1]
  wf := wf

/-- The reference's gather: the same, with the start indices a [2, 16384] table (index vector on axis 2). -/
abbrev dimsPair (wf : GatherDims.WF SAng SPair SNb [0] [1] [] [1] [] 2 ![2048, 1]) : GatherDims SAng SPair SNb where
  offsetDims := [0]
  collapsedSliceDims := [1]
  operandBatchingDims := []
  startIndicesBatchingDims := []
  startIndexMap := [1]
  indexVectorDim := 2
  sliceSizes := ![2048, 1]
  wf := wf

section
variable {w : Nat}

theorem dimsCol_row (wf) (j : SAng.Idx) (idx : IVec SCol w) :
    ((dimsCol wf).operandIdx j idx 0).val = (j 0).val := by
  show (dimsCol wf).start j idx 0 + (dimsCol wf).batchCoord j 0 + (dimsCol wf).offCoord j 0 = _
  rw [GatherDims.batchCoord_eq_zero _ _ _ List.not_mem_nil]
  have hs : (dimsCol wf).start j idx 0 = 0 := by
    unfold GatherDims.start; rw [dif_neg (by decide : (0 : Fin 2) ∉ ([1] : List (Fin 2)))]
  have ho : (dimsCol wf).offCoord j 0 = (j 0).val := by
    unfold GatherDims.offCoord; rw [dif_pos (by decide : (0 : Fin 2) ∈ SAng.kept ([1] ++ ([] : List (Fin 2))))]; rfl
  omega

theorem dimsCol_col (wf) (j : SAng.Idx) (idx : IVec SCol w) :
    ((dimsCol wf).operandIdx j idx 1).val = min (idx (ix2 (j 1) 0)).toInt.toNat 16383 := by
  show (dimsCol wf).start j idx 1 + (dimsCol wf).batchCoord j 1 + (dimsCol wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (dimsCol wf).startIndexMap from List.mem_singleton.mpr rfl)]
  have hsi : (dimsCol wf).siIdx j ⟨List.idxOf (1 : Fin 2) (dimsCol wf).startIndexMap,
      List.idxOf_lt_length_iff.2 (List.mem_singleton.mpr rfl)⟩ = ix2 (j 1) 0 := by
    funext b; refine Fin.ext ?_
    match b with
    | ⟨0, _⟩ => rfl
    | ⟨1, _⟩ => rfl
  rw [hsi]
  rfl

/-- The kernel's gather at (n, i): row `n` of the operand at the clamped start index of site `i`. -/
theorem gatherCol_apply {α : Type} (wf) (x : SAng.Idx → α) (idx : IVec SCol w) (n : Fin 2048) (i : Fin 16384) :
    Host.gather (dimsCol wf) x idx (ix2 n i) = x (ix2 n ⟨min (idx (ix2 i 0)).toInt.toNat 16383, by omega⟩) := by
  unfold Host.gather
  congr 1
  funext a
  refine Fin.ext ?_
  match a with
  | ⟨0, _⟩ => exact dimsCol_row wf (ix2 n i) idx
  | ⟨1, _⟩ => exact dimsCol_col wf (ix2 n i) idx

theorem dimsPair_row (wf) (j : SNb.Idx) (idx : IVec SPair w) :
    ((dimsPair wf).operandIdx j idx 0).val = (j 0).val := by
  show (dimsPair wf).start j idx 0 + (dimsPair wf).batchCoord j 0 + (dimsPair wf).offCoord j 0 = _
  rw [GatherDims.batchCoord_eq_zero _ _ _ List.not_mem_nil]
  have hs : (dimsPair wf).start j idx 0 = 0 := by
    unfold GatherDims.start; rw [dif_neg (by decide : (0 : Fin 2) ∉ ([1] : List (Fin 2)))]
  have ho : (dimsPair wf).offCoord j 0 = (j 0).val := by
    unfold GatherDims.offCoord; rw [dif_pos (by decide : (0 : Fin 2) ∈ SAng.kept ([1] ++ ([] : List (Fin 2))))]; rfl
  omega

theorem dimsPair_col (wf) (j : SNb.Idx) (idx : IVec SPair w) :
    ((dimsPair wf).operandIdx j idx 1).val = min (idx (ix3 (j 1) (j 2) 0)).toInt.toNat 16383 := by
  show (dimsPair wf).start j idx 1 + (dimsPair wf).batchCoord j 1 + (dimsPair wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (dimsPair wf).startIndexMap from List.mem_singleton.mpr rfl)]
  have hsi : (dimsPair wf).siIdx j ⟨List.idxOf (1 : Fin 2) (dimsPair wf).startIndexMap,
      List.idxOf_lt_length_iff.2 (List.mem_singleton.mpr rfl)⟩ = ix3 (j 1) (j 2) 0 := by
    funext b; refine Fin.ext ?_
    match b with
    | ⟨0, _⟩ => rfl
    | ⟨1, _⟩ => rfl
    | ⟨2, _⟩ => rfl
  rw [hsi]
  rfl

/-- The reference's gather at (n, k, i): row `n` of the operand at the clamped start index of site `i` in direction `k`. -/
theorem gatherPair_apply {α : Type} (wf) (x : SAng.Idx → α) (idx : IVec SPair w) (n : Fin 2048) (k : Fin 2)
    (i : Fin 16384) :
    Host.gather (dimsPair wf) x idx (ix3 n k i)
      = x (ix2 n ⟨min (idx (ix3 k i 0)).toInt.toNat 16383, by omega⟩) := by
  unfold Host.gather
  congr 1
  funext a
  refine Fin.ext ?_
  match a with
  | ⟨0, _⟩ => exact dimsPair_row wf (ix3 n k i) idx
  | ⟨1, _⟩ => exact dimsPair_col wf (ix3 n k i) idx

end

end Cert.Lattice

end
-- ==== Proof.Domain.lean ====
/-
  What the stated domain says of the shift table: every entry is a legal index of the lattice axis,
  -16384 ≤ s[k, i] < 16384.
-/
import proofs.«400620_j83665962926683_1_alg».proof.Pre_finite_inputs
import proofs.«400620_j83665962926683_1_alg».proof.Proof.Gen.Pre_finite_inputs
import proofs.«400620_j83665962926683_1_alg».proof.Proof.Neighbour
import Idealize.ShloMosaic.Lib.ReduceAll

noncomputable section

namespace Cert.Lattice.Domain

open Idealize.ShloMosaic Idealize.ShloMosaic.ValueIdx

/-- Under the precondition every shift entry is in [-16384, 16384). -/
theorem shift_range {F : FTy → Type} [FloatOps F] [Cert.Pre_finite_inputs.Facts]
    (x0 : FVec F Cert.Pre_finite_inputs.S2048x32768 .f32) (x1 : IVec Cert.Pre_finite_inputs.S2x16384 32)
    (h : Cert.Pre_finite_inputs.fn (F := F) x0 x1 = fun _ => 1#1) (k : Fin 2) (i : Fin 16384) :
    -16384 ≤ (x1 (ix2 k i)).toInt ∧ (x1 (ix2 k i)).toInt < 16384 := by
  -- the predicate's single entry is the conjunction of the two all-reductions
  have h0 := congrFun h ValueIdx.ix0
  dsimp only [Cert.Pre_finite_inputs.fn] at h0
  obtain ⟨_, h9⟩ := IntOp.andi_eq_one.1 h0
  haveI : Subsingleton Cert.Pre_finite_inputs.S_.Idx := ⟨fun a b => funext fun d => d.elim0⟩
  -- the all-reduction over the shift table is 1, so its entry at (k, i) is
  have hk := Host.reduce_andi_all _ _ _ _ _ h9 (ix2 k i)
  obtain ⟨hge, hlt⟩ := IntOp.andi_eq_one.1 hk
  -- the two broadcasts are the constants -16384 and 16384 at every index
  exact Cert.Lattice.range_of_cmp _ hge hlt

end Cert.Lattice.Domain

end
-- ==== Proof.Energy.lean ====
/-
  The energy of one sample row, and the one law that joins the two programs.

  With `P` the polar and `A` the azimuth angles of a sample (arrays [2048, 16384]) and `s` the shift table, the bond
  of site `i` with its neighbour in direction `k` is

      cos P[n, i'] · cos P[n, i] + (sin P[n, i'] · sin P[n, i]) · cos (A[n, i'] − A[n, i]),   i' = nbrCol s[k, i],

  and the row's energy is minus the sum of all 2 · 16384 bonds, from the zero word. The reference sums them over (k, i)
  at once; the kernel walks the sites in 16 tiles of 1024 lanes, adds the two directions' bonds lane by lane, sums the
  lanes of a tile and accumulates the tiles. Addition on the extended reals is commutative and associative, so the two
  groupings are one sum; nothing about finiteness is used.
-/
import Idealize.ShloMosaic.PureOps.Ideal
import Idealize.ShloMosaic.PureOps.Ideal.Laws
import Idealize.ShloMosaic.Lib.ValueIdx
import proofs.«400620_j83665962926683_1_alg».proof.Proof.Neighbour

noncomputable section

open scoped BigOperators

namespace Cert.Lattice

open Idealize.ShloMosaic Idealize.ShloMosaic.ValueIdx

/-- The shift table: direction, site. -/
abbrev SShift : Shape := ⟨2, ![2, 16384]⟩
/-- The result: one energy per sample, kept as a column. -/
abbrev SOut : Shape := ⟨2, ![2048, 1]⟩

/-- The bond of site `i` of sample `n` with its neighbour in direction `k`. -/
def bond (P A : SAng.Idx → EReal) (s : SShift.Idx → BitVec 32) (n : Fin 2048) (k : Fin 2) (i : Fin 16384) : EReal :=
  Ideal.cos (P (ix2 n (nbrCol (s (ix2 k i))))) * Ideal.cos (P (ix2 n i))
    + Ideal.sin (P (ix2 n (nbrCol (s (ix2 k i))))) * Ideal.sin (P (ix2 n i))
      * Ideal.cos (A (ix2 n (nbrCol (s (ix2 k i)))) - A (ix2 n i))

/-- The energy of each sample: the word -1.0 times (the zero word plus the sum of the sample's bonds). -/
def energy (P A : SAng.Idx → EReal) (s : SShift.Idx → BitVec 32) : SOut.Idx → EReal := fun j =>
  Ideal.ofBits .f32 0xBF800000#32
    * (Ideal.ofBits .f32 0x00000000#32 + ∑ k : Fin 2, ∑ i : Fin 16384, bond P A s (j 0) k i)

/-- Lane `l` of tile `j` is site `1024 j + l`. -/
def tileCol (j : Fin 16) (l : Fin 1024) : Fin 16384 := ⟨1024 * j.val + l.val, by omega⟩

/-- The 16 tiles of 1024 lanes are the 16384 sites, each once. -/
theorem sum_tiles {M : Type*} [AddCommMonoid M] (g : Fin 16384 → M) :
    ∑ j : Fin 16, ∑ l : Fin 1024, g (tileCol j l) = ∑ i : Fin 16384, g i := by
  rw [← Fintype.sum_prod_type']
  refine Fintype.sum_equiv (finProdFinEquiv (m := 16) (n := 1024)) _ _ (fun x => ?_)
  obtain ⟨j, l⟩ := x
  congr 1
  apply Fin.ext
  show 1024 * j.val + l.val = l.val + 1024 * j.val
  omega

/-- What the kernel adds to a row's accumulator at tile `j`: the lane sum of the two directions' bonds. -/
def tileSum (P A : SAng.Idx → EReal) (s : SShift.Idx → BitVec 32) (n : Fin 2048) (j : Fin 16) : EReal :=
  ∑ l : Fin 1024, (bond P A s n 0 (tileCol j l) + bond P A s n 1 (tileCol j l))

/-- The same, at a tile number that is a natural (zero past the last tile, which no point reaches). -/
def tileSumN (P A : SAng.Idx → EReal) (s : SShift.Idx → BitVec 32) (n : Fin 2048) (t : ℕ) : EReal :=
  if h : t < 16 then tileSum P A s n ⟨t, h⟩ else 0

/-- THE LAW. The tiles' lane sums, accumulated, are the sum of all the row's bonds: the kernel's result is the energy. -/
theorem tiles_eq_energy (P A : SAng.Idx → EReal) (s : SShift.Idx → BitVec 32) (n : Fin 2048) :
    Ideal.ofBits .f32 0xBF800000#32 * (∑ t ∈ Finset.range 16, tileSumN P A s n t) = energy P A s (ix2 n 0) := by
  unfold energy
  rw [Ideal.ofBits_zero_f32, zero_add]
  refine congrArg (fun z => Ideal.ofBits .f32 0xBF800000#32 * z) ?_
  rw [Finset.sum_range]
  have e : ∀ t : Fin 16, tileSumN P A s n t.val = tileSum P A s n t := fun t => by
    unfold tileSumN; rw [dif_pos t.isLt]
  simp only [e]
  unfold tileSum
  simp only [Finset.sum_add_distrib]
  rw [sum_tiles (fun i => bond P A s n 0 i), sum_tiles (fun i => bond P A s n 1 i), Fin.sum_univ_two]

end Cert.Lattice

end
-- ==== Proof.RefValue.lean ====
/-
  The reference's result, read at the ideal values: each sample's entry is the energy of `Energy.lean`, over the
  polar and azimuth arrays the reference slices out of the state.
-/
import proofs.«400620_j83665962926683_1_alg».proof.Proof.Gen.ReferenceIdeal.Read
import proofs.«400620_j83665962926683_1_alg».proof.Proof.Energy
import Idealize.ShloMosaic.PureOps.Ideal.Laws

noncomputable section

open scoped BigOperators

namespace Cert.Lattice.RefSide

open Idealize.ShloMosaic Idealize.ShloMosaic.ValueIdx
open Cert.ReferenceIdeal Cert.ReferenceIdeal.Gen Cert.ReferenceIdeal.Read

variable (x0 : (⟨S2048x32768, .f32⟩ : BufTy).Contents (Elt Ideal)) (x1 : (⟨S2x16384, .i32⟩ : BufTy).Contents (Elt Ideal))

/-! ## The wrapped shift table -/

/-- Entry (k, i, 0) of the start-index array sits at (k, i) of the table. -/
theorem idx12 (k : Fin 2) (i : Fin 16384) : idx_main_v12 (ix3 k i (0 : Fin 1)) = ix2 k i := by
  funext a; match a with | ⟨0, _⟩ => rfl | ⟨1, _⟩ => rfl
theorem idx19 (k : Fin 2) (i : Fin 16384) : idx_main_v19 (ix3 k i (0 : Fin 1)) = ix2 k i := by
  funext a; match a with | ⟨0, _⟩ => rfl | ⟨1, _⟩ => rfl
theorem idx26 (k : Fin 2) (i : Fin 16384) : idx_main_v26 (ix3 k i (0 : Fin 1)) = ix2 k i := by
  funext a; match a with | ⟨0, _⟩ => rfl | ⟨1, _⟩ => rfl

/-- The three start-index arrays hold the once-wrapped table entries. -/
theorem v12_at (k : Fin 2) (i : Fin 16384) :
    val_main_v12 (F := Ideal) x1 (ix3 k i 0) = wrapWord (x1 (ix2 k i)) := by
  rw [val_main_v12_apply, idx12, val_main_v11_apply, val_main_v8_apply, val_main_v10_apply, val_main_v7_apply,
    val_main_v9_apply, val_main_c_apply, val_main_c_0_apply]
  rfl
theorem v19_at (k : Fin 2) (i : Fin 16384) :
    val_main_v19 (F := Ideal) x1 (ix3 k i 0) = wrapWord (x1 (ix2 k i)) := by
  rw [val_main_v19_apply, idx19, val_main_v18_apply, val_main_v15_apply, val_main_v17_apply, val_main_v14_apply,
    val_main_v16_apply, val_main_c_1_apply, val_main_c_2_apply]
  rfl
theorem v26_at (k : Fin 2) (i : Fin 16384) :
    val_main_v26 (F := Ideal) x1 (ix3 k i 0) = wrapWord (x1 (ix2 k i)) := by
  rw [val_main_v26_apply, idx26, val_main_v25_apply, val_main_v22_apply, val_main_v24_apply, val_main_v21_apply,
    val_main_v23_apply, val_main_c_3_apply, val_main_c_4_apply]
  rfl

/-! ## The gathers -/

/-- The reference's gather over a start-index array holding the wrapped word of `b` at (k, i, 0): row `n` of the
    operand at the neighbour column of `b`. -/
theorem gather_nbr {α : Type} (x : SAng.Idx → α) (idx : IVec SPair 32) (b : BitVec 32) (n : Fin 2048) (k : Fin 2)
    (i : Fin 16384) (hidx : idx (ix3 k i 0) = wrapWord b) :
    Host.gather gather_S2048x16384_S2x16384x1_S2048x2x16384_0_1_n_n_1_2_20481 x idx (ix3 n k i)
      = x (ix2 n (nbrCol b)) := by
  have h := gatherPair_apply Facts₀.gather_S2048x16384_S2x16384x1_S2048x2x16384_0_1_n_n_1_2_20481_wf x idx n k i
  refine h.trans (congrArg (fun c => x (ix2 n c)) (Fin.ext ?_))
  show min (idx (ix3 k i 0)).toInt.toNat 16383 = min (wrapWord b).toInt.toNat 16383
  rw [hidx]

theorem v13_at (n : Fin 2048) (k : Fin 2) (i : Fin 16384) :
    val_main_v13 (F := Ideal) x0 x1 (ix3 n k i) = val_main_v5 (F := Ideal) x0 (ix2 n (nbrCol (x1 (ix2 k i)))) :=
  gather_nbr _ _ _ n k i (v12_at x1 k i)
theorem v20_at (n : Fin 2048) (k : Fin 2) (i : Fin 16384) :
    val_main_v20 (F := Ideal) x0 x1 (ix3 n k i) = val_main_v6 (F := Ideal) x0 (ix2 n (nbrCol (x1 (ix2 k i)))) :=
  gather_nbr _ _ _ n k i (v19_at x1 k i)
theorem v27_at (n : Fin 2048) (k : Fin 2) (i : Fin 16384) :
    val_main_v27 (F := Ideal) x0 x1 (ix3 n k i) = val_main_v4 (F := Ideal) x0 (ix2 n (nbrCol (x1 (ix2 k i)))) :=
  gather_nbr _ _ _ n k i (v26_at x1 k i)

/-! ## The site's own values, broadcast over the direction axis -/

theorem idx29 (n : Fin 2048) (k : Fin 2) (i : Fin 16384) : idx_main_v28 (idx_main_v29 (ix3 n k i)) = ix2 n i := by
  funext a; match a with | ⟨0, _⟩ => rfl | ⟨1, _⟩ => rfl
theorem idx32 (n : Fin 2048) (k : Fin 2) (i : Fin 16384) : idx_main_v31 (idx_main_v32 (ix3 n k i)) = ix2 n i := by
  funext a; match a with | ⟨0, _⟩ => rfl | ⟨1, _⟩ => rfl
theorem idx35 (n : Fin 2048) (k : Fin 2) (i : Fin 16384) : idx_main_v34 (idx_main_v35 (ix3 n k i)) = ix2 n i := by
  funext a; match a with | ⟨0, _⟩ => rfl | ⟨1, _⟩ => rfl

theorem v29_at (n : Fin 2048) (k : Fin 2) (i : Fin 16384) :
    val_main_v29 (F := Ideal) x0 (ix3 n k i) = val_main_v5 (F := Ideal) x0 (ix2 n i) := by
  rw [val_main_v29_apply, val_main_v28_apply, idx29]
theorem v32_at (n : Fin 2048) (k : Fin 2) (i : Fin 16384) :
    val_main_v32 (F := Ideal) x0 (ix3 n k i) = val_main_v6 (F := Ideal) x0 (ix2 n i) := by
  rw [val_main_v32_apply, val_main_v31_apply, idx32]
theorem v35_at (n : Fin 2048) (k : Fin 2) (i : Fin 16384) :
    val_main_v35 (F := Ideal) x0 (ix3 n k i) = val_main_v4 (F := Ideal) x0 (ix2 n i) := by
  rw [val_main_v35_apply, val_main_v34_apply, idx35]

/-! ## One summand is one bond -/

theorem v39_at (n : Fin 2048) (k : Fin 2) (i : Fin 16384) :
    val_main_v39 (F := Ideal) x0 x1 (ix3 n k i)
      = bond (val_main_v2 (F := Ideal) x0) (val_main_v4 (F := Ideal) x0) x1 n k i := by
  rw [val_main_v39_apply, val_main_v30_apply, val_main_v38_apply, val_main_v33_apply, val_main_v37_apply,
    val_main_v36_apply, v13_at, v20_at, v27_at, v29_at, v32_at, v35_at]
  simp only [val_main_v5_apply, val_main_v6_apply]
  rfl

/-! ## The sum over direction and site -/

/-- The indices of a [2048, 2, 16384] array that keep only the sample coordinate `n` once the direction and site axes
    are dropped are exactly (n, k, i) over all directions and sites: the sum over them is the double sum. -/
theorem sum_drop (h : S2048x2x16384.ReducesTo [1, 2] S2048) (f : S2048x2x16384.Idx → EReal) (n : Fin 2048) :
    ∑ j ∈ Finset.univ.filter (fun j => h.drop j = ix1 n), f j = ∑ k : Fin 2, ∑ i : Fin 16384, f (ix3 n k i) := by
  have hd : ∀ j : S2048x2x16384.Idx, h.drop j = ix1 n ↔ j 0 = n := by
    intro j
    have h0 : ((h.drop j 0 : Fin _) : Nat) = (j 0 : Nat) := Shape.ReducesTo.drop_apply_val_of_eq h j 0 0
    constructor
    · intro e
      rw [e] at h0
      exact Fin.ext h0.symm
    · intro e
      funext b
      match b with
      | ⟨0, _⟩ => exact Fin.ext (h0.trans (congrArg Fin.val e))
  rw [← Fintype.sum_prod_type' (fun k i => f (ix3 n k i))]
  refine Finset.sum_bij' (fun j _ => (j 1, j 2)) (fun p _ => ix3 n p.1 p.2) (fun _ _ => Finset.mem_univ _) ?_ ?_ ?_ ?_
  · intro p _
    rw [Finset.mem_filter]
    exact ⟨Finset.mem_univ _, (hd _).mpr rfl⟩
  · intro j hj
    have h0 := (hd j).mp (Finset.mem_filter.mp hj).2
    funext a
    match a with
    | ⟨0, _⟩ => exact h0.symm
    | ⟨1, _⟩ => rfl
    | ⟨2, _⟩ => rfl
  · intro p _
    rfl
  · intro j hj
    have h0 := (hd j).mp (Finset.mem_filter.mp hj).2
    show f j = f (ix3 n (j 1) (j 2))
    congr 1
    funext a
    match a with
    | ⟨0, _⟩ => exact h0
    | ⟨1, _⟩ => rfl
    | ⟨2, _⟩ => rfl

/-- The reduction at sample `n`: the zero word plus the sum of the summands over direction and site. -/
theorem v40_at (n : Fin 2048) :
    val_main_v40 (F := Ideal) x0 x1 (ix1 n)
      = Ideal.ofBits .f32 0x00000000#32 + ∑ k : Fin 2, ∑ i : Fin 16384, val_main_v39 (F := Ideal) x0 x1 (ix3 n k i) := by
  unfold val_main_v40
  show Ideal.hostReduceAdd Facts₀.reducesTo_S2048x2x16384_S2048_d1_2 (val_main_v39 (F := Ideal) x0 x1)
      (Ideal.ofBits .f32 0x00000000#32) (ix1 n) = _
  unfold Ideal.hostReduceAdd
  rw [sum_drop]

theorem idx41 (n : Fin 2048) (z : Fin 1) : idx_main_v41 (ix2 n z) = ix1 n := by
  funext a; match a with | ⟨0, _⟩ => rfl

/-- The reference's result array is the energy of every sample. -/
theorem value_eq (x0 : (⟨S2048x32768, .f32⟩ : BufTy).Contents (Elt Ideal)) (x1 : (⟨S2x16384, .i32⟩ : BufTy).Contents (Elt Ideal)) :
    val_main_v43 (F := Ideal) x0 x1
      = Cert.Lattice.energy (val_main_v2 (F := Ideal) x0) (val_main_v4 (F := Ideal) x0) x1 := by
  funext j
  obtain ⟨n, z, rfl⟩ : ∃ (n : Fin 2048) (z : Fin 1), j = ix2 n z := ⟨j 0, j 1, eq_ix2 j⟩
  rw [val_main_v43_apply, val_main_v42_apply, val_main_cst_5_apply, val_main_v41_apply, idx41, v40_at]
  simp only [v39_at]
  rfl

end Cert.Lattice.RefSide

end
-- ==== Proof.Cases.lean ====
/-
  What one grid point leaves behind, as values. Writing `acc` for the accumulator column [256, 1] a point finds
  (the zero column at the first tile of a row block, where the kernel resets it) and `x0 … x5` for the six input blocks
  (polar, azimuth, the two directions' neighbour polar angles, the two directions' neighbour azimuths), every point
  leaves in the accumulator `step x0 … x5 acc`: `acc` plus the lane sums of the two directions' bond terms (the payload
  the store writes); at the last tile the output block is the word -1.0 times that.
-/
import proofs.«400620_j83665962926683_1_alg».proof.Proof.Gen.KernelIdeal.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.SL.Sem Idealize.ShloMosaic.Tactic

variable {F : FTy → Type} [FloatOps F]

theorem zeroOff : (![0, 0] : Fin 2 → Nat) = fun _ => 0 := funext fun a => by fin_cases a <;> rfl

/-- The accumulator after a point that found `acc` in it and the six blocks in the input buffers. -/
abbrev step (x0 x1 x2 x3 x4 x5 : Vec F S256x1024 .f32) (acc : Vec F S256x1 .f32) : Vec F S256x1 .f32 :=
  k0_pay1 (k0_pay4 x0 x1 x2 x4 x3 x5 acc)

/-- The first tile of a row block: the accumulator is reset to the zero column, read back, and stepped. -/
theorem scratch_A (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1 .f32) (h8 : a8.IsWhole) (a9 : Memref sig .tc .vmem S256x1 .f32) (h9 : a9.IsWhole) (hc0 : cond0_0 i) (hc1 : ¬cond0_1 i) (x0 x1 x2 x3 x4 x5 : Vec F S256x1024 .f32) :
    sout0_A_0 c i a2 h2 a3 h3 a4 h4 a5 h5 a6 h6 a7 h7 a8 h8 a9 h9 hc0 hc1 x0 x1 x2 x3 x4 x5 = step x0 x1 x2 x3 x4 x5 (k0_pay3 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x1) zeroOff]
  simp only [View.readAt_eq_ld, h2.read_unread, h3.read_unread, h4.read_unread, h5.read_unread, h6.read_unread,
    h7.read_unread, View.ld_unit_zero (S := S256x1024) zeroOff, View.readCov_unit_zero (S := S256x1) _ zeroOff]

/-- A middle tile: the accumulator the point before left is stepped. -/
theorem scratch_B (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1 .f32) (h8 : a8.IsWhole) (a9 : Memref sig .tc .vmem S256x1 .f32) (h9 : a9.IsWhole) (hc0 : ¬cond0_0 i) (hc1 : ¬cond0_1 i) (x0 x1 x2 x3 x4 x5 : Vec F S256x1024 .f32) (acc : Vec F S256x1 .f32) :
    sout0_B_0 c i a2 h2 a3 h3 a4 h4 a5 h5 a6 h6 a7 h7 a8 h8 a9 h9 hc0 hc1 x0 x1 x2 x3 x4 x5 acc = step x0 x1 x2 x3 x4 x5 acc := by
  unfold sout0_B_0
  rw [View.read_writes_eq_canon _ _ _ (scover0_B_0 c i a2 h2 a3 h3 a4 h4 a5 h5 a6 h6 a7 h7 a8 h8 a9 h9 hc0 hc1 x0 x1 x2 x3 x4 x5 acc)]
  unfold kernelRun0_B
  dsimp only
  sl_unfold_words
  rw [View.canon_unit_zero zeroOff]
  simp only [View.readAt_eq_ld, h2.read_unread, h3.read_unread, h4.read_unread, h5.read_unread, h6.read_unread,
    h7.read_unread, h9.read_unread, View.ld_unit_zero (S := S256x1024) zeroOff, View.ld_unit_zero (S := S256x1) zeroOff]

/-- The last tile: the same step of the accumulator … -/
theorem scratch_C (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1 .f32) (h8 : a8.IsWhole) (a9 : Memref sig .tc .vmem S256x1 .f32) (h9 : a9.IsWhole) (hc0 : ¬cond0_0 i) (hc1 : cond0_1 i) (x0 x1 x2 x3 x4 x5 : Vec F S256x1024 .f32) (acc : Vec F S256x1 .f32) :
    sout0_C_0 c i a2 h2 a3 h3 a4 h4 a5 h5 a6 h6 a7 h7 a8 h8 a9 h9 hc0 hc1 x0 x1 x2 x3 x4 x5 acc = step x0 x1 x2 x3 x4 x5 acc := by
  unfold sout0_C_0
  rw [View.read_writes_eq_canon _ _ _ (scover0_C_0 c i a2 h2 a3 h3 a4 h4 a5 h5 a6 h6 a7 h7 a8 h8 a9 h9 hc0 hc1 x0 x1 x2 x3 x4 x5 acc)]
  unfold kernelRun0_C
  dsimp only
  sl_unfold_words
  rw [View.canon_unit_zero zeroOff]
  simp only [View.readAt_eq_ld, h2.read_unread, h3.read_unread, h4.read_unread, h5.read_unread, h6.read_unread,
    h7.read_unread, h9.read_unread, View.ld_unit_zero (S := S256x1024) zeroOff, View.ld_unit_zero (S := S256x1) zeroOff]

/-- … and the output block is the stepped accumulator, read back, times the word -1.0. -/
theorem out_C (c : Dev nD) (i : grid0.Coords) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S256x1024 .f32) (h5 : a5.IsWhole) (a6 : Memref sig .tc .vmem S256x1024 .f32) (h6 : a6.IsWhole) (a7 : Memref sig .tc .vmem S256x1024 .f32) (h7 : a7.IsWhole) (a8 : Memref sig .tc .vmem S256x1 .f32) (h8 : a8.IsWhole) (a9 : Memref sig .tc .vmem S256x1 .f32) (h9 : a9.IsWhole) (hc0 : ¬cond0_0 i) (hc1 : cond0_1 i) (x0 x1 x2 x3 x4 x5 : Vec F S256x1024 .f32) (acc : Vec F S256x1 .f32) :
    out0_C_6 c i a2 h2 a3 h3 a4 h4 a5 h5 a6 h6 a7 h7 a8 h8 a9 h9 hc0 hc1 x0 x1 x2 x3 x4 x5 acc = k0_pay2 (step x0 x1 x2 x3 x4 x5 acc) := by
  unfold out0_C_6
  rw [View.read_writes_eq_canon _ _ _ (cover0_C_6 c i a2 h2 a3 h3 a4 h4 a5 h5 a6 h6 a7 h7 a8 h8 a9 h9 hc0 hc1 x0 x1 x2 x3 x4 x5 acc)]
  unfold kernelRun0_C
  dsimp only
  sl_unfold_words
  rw [View.canon_unit_zero zeroOff]
  simp only [View.readAt_eq_ld, h2.read_unread, h3.read_unread, h4.read_unread, h5.read_unread, h6.read_unread,
    h7.read_unread, h9.read_unread, View.ld_unit_zero (S := S256x1024) zeroOff, View.ld_unit_zero (S := S256x1) zeroOff,
    View.readCov_unit_zero (S := S256x1) _ zeroOff]

end Cert.KernelIdeal.Gen

end
-- ==== Proof.Step.lean ====
/-
  The accumulator step at the ideal values, entry by entry: row `y` of the column gains the sum, over the tile's 1024
  lanes, of the two directions' bond terms of the six blocks at (y, lane).
-/
import proofs.«400620_j83665962926683_1_alg».proof.Proof.Cases
import Idealize.ShloMosaic.PureOps.Ideal.Laws
import Idealize.ShloMosaic.Lib.ValueIdx

noncomputable section

open scoped BigOperators

namespace Cert.KernelIdeal.Gen

open Idealize.ShloMosaic Idealize.ShloMosaic.ValueIdx

/-- One direction's bond term of a tile at a (row, lane): neighbour polar `xn`, own polar `xp`, neighbour azimuth `an`,
    own azimuth `ap`. -/
def blockBond (xn xp an ap : FVec Ideal S256x1024 .f32) (j : S256x1024.Idx) : EReal :=
  Ideal.cos (xn j) * Ideal.cos (xp j) + Ideal.sin (xn j) * Ideal.sin (xp j) * Ideal.cos (an j - ap j)

/-- The lane sum of a [256, 1024] tile at row `y`. -/
theorem laneSum_apply (v : FVec Ideal S256x1024 .f32) (y : Fin 256) :
    multiReduction (F := Ideal) .add [1] S256 v 0x00000000#32 reduces_S256x1024_S256 (.inl rfl) rfl (ix1 y)
      = ∑ l : Fin 1024, v (ix2 y l) := by
  refine (Ideal.multiReduction_add_single v 0x00000000#32 reduces_S256x1024_S256 (.inl rfl) rfl (ix1 y)).trans ?_
  refine Finset.sum_congr rfl fun l _ => congrArg v ?_
  funext a
  apply Fin.ext
  match a with
  | ⟨0, _⟩ => rfl
  | ⟨1, _⟩ => rfl

/-- A [256] vector kept as a [256, 1] column reads, at row `y`, the vector at `y`. -/
theorem column_apply {α : Type} (v : S256.Idx → α) (y : Fin 256) :
    shapeCast S256x1 v shapeCasts_S256_S256x1 (ix2 y 0) = v (ix1 y) :=
  shapeCast_apply v shapeCasts_S256_S256x1 (ix2 y 0) (ix1 y) (by
    rw [Shape.rowMajor_val_one, Shape.rowMajor_val_two]
    show y.val = y.val * 1 + 0
    omega)

/-- THE STEP, entry by entry. -/
theorem step_apply (x0 x1 x2 x3 x4 x5 : FVec Ideal S256x1024 .f32) (acc : FVec Ideal S256x1 .f32) (y : Fin 256) :
    step (F := Ideal) x0 x1 x2 x3 x4 x5 acc (ix2 y 0)
      = acc (ix2 y 0) + ∑ l : Fin 1024, (blockBond x2 x0 x4 x1 (ix2 y l) + blockBond x3 x0 x5 x1 (ix2 y l)) := by
  unfold step k0_pay1 k0_pay4
  simp only [shapeCast_self]
  refine congrArg (fun z => acc (ix2 y 0) + z) ?_
  refine (column_apply _ y).trans ?_
  refine (laneSum_apply _ y).trans ?_
  rfl

/-- The zero column the reset stores is zero at every row. -/
theorem zeroCol_apply (j : S256x1.Idx) : (k0_pay3 (F := Ideal)) j = 0 := by
  unfold k0_pay3
  simp only [shapeCast_self]
  show Ideal.ofBits .f32 0x00000000#32 = 0
  exact Ideal.ofBits_zero_f32

/-- The output block: the word -1.0 times the accumulator, row by row. -/
theorem scaled_apply (acc : FVec Ideal S256x1 .f32) (j : S256x1.Idx) :
    k0_pay2 (F := Ideal) acc j = Ideal.ofBits .f32 0xBF800000#32 * acc j := rfl

end Cert.KernelIdeal.Gen

end
-- ==== Proof.Arrays.lean ====
/-
  The six arrays the kernel's windows stage, as the region finds them, read at an index: the polar and azimuth
  angles, and for each of them and each direction the neighbours' angles — the angle array at the neighbour column.
-/
import proofs.«400620_j83665962926683_1_alg».proof.Proof.Gen.KernelIdeal.Frame
import proofs.«400620_j83665962926683_1_alg».proof.Proof.Gen.ReferenceIdeal.Read
import proofs.«400620_j83665962926683_1_alg».proof.Proof.Energy
import Idealize.ShloMosaic.Lib.StableHlo.Run
import Idealize.ShloMosaic.Lib.ReduceAll

noncomputable section

namespace Cert.Lattice.KernelSide

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The polar angles of the launch state: the reference's own slice of it. -/
abbrev polar (c : Dev nD) : SAng.Idx → EReal :=
  Cert.ReferenceIdeal.Read.val_main_v2 (F := Ideal) (m ((c : Thread nD τ).loc main_arg0))
/-- The azimuth angles. -/
abbrev azim (c : Dev nD) : SAng.Idx → EReal :=
  Cert.ReferenceIdeal.Read.val_main_v4 (F := Ideal) (m ((c : Thread nD τ).loc main_arg0))
/-- The shift table. -/
abbrev shift (c : Dev nD) : SShift.Idx → BitVec 32 := m ((c : Thread nD τ).loc main_arg1)

set_option maxRecDepth 65536 in
theorem arr_polar (c : Dev nD) (j : SAng.Idx) : V m c main_v2 j = polar m c j := by
  -- the array is the launch state's first argument reshaped, sliced and reshaped: the reference's own chain
  have e : (V m c main_v2 : S2048x16384.Idx → EReal) = polar m c := by
    dsimp only [Gen.V]
    simp only [hostOps0, hostOps0_1, hostOps0_2, hostOps0_3, hostOps0_4, List.flatten_cons, List.flatten_nil, List.append_nil,
      List.cons_append, List.nil_append]
    after_results_simp
    rfl
  exact congrFun e j

set_option maxRecDepth 65536 in
theorem arr_azim (c : Dev nD) (j : SAng.Idx) : V m c main_v4 j = azim m c j := by
  have e : (V m c main_v4 : S2048x16384.Idx → EReal) = azim m c := by
    dsimp only [Gen.V]
    simp only [hostOps0, hostOps0_1, hostOps0_2, hostOps0_3, hostOps0_4, List.flatten_cons, List.flatten_nil, List.append_nil,
      List.cons_append, List.nil_append]
    after_results_simp
    rfl
  exact congrFun e j

/-! ## One direction's gather, over variables -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A vector laid as a column reads, at (i, z), the vector at i. -/
theorem col_apply {α : Type} (v : S16384.Idx → α) (i : Fin 16384) (z : Fin 1) :
    broadcastInDim S16384x1 ![0] bcast_S16384_S16384x1_0 v (ix2 i z) = v (ix1 i) := by
  unfold broadcastInDim
  congr 1
  funext a
  match a with
  | ⟨0, _⟩ => rfl

/-- A vector laid along the lattice axis of an angle array reads, at (n, i), the vector at i. -/
theorem row_apply {α : Type} (v : S16384.Idx → α) (n : Fin 2048) (i : Fin 16384) :
    broadcastInDim S2048x16384 ![1] bcast_S16384_S2048x16384_1 v (ix2 n i) = v (ix1 i) := by
  unfold broadcastInDim
  congr 1
  funext a
  match a with
  | ⟨0, _⟩ => rfl

/-- The start indices of one direction: each entry wrapped once, laid as a column. -/
def idxCol (sv : IVec S16384 32) : IVec S16384x1 32 :=
  broadcastInDim S16384x1 ![0] bcast_S16384_S16384x1_0
    (select (cmpi .slt sv (broadcastInDim S16384 ![] bcast_S_S16384 (constantI S_ 32 0#32)))
      (addi sv (broadcastInDim S16384 ![] bcast_S_S16384 (constantI S_ 32 16384#32))) sv)

theorem idxCol_apply (sv : IVec S16384 32) (i : Fin 16384) (z : Fin 1) :
    idxCol sv (ix2 i z) = wrapWord (sv (ix1 i)) := by
  unfold idxCol
  rw [col_apply]
  rfl

/-- The range test of the start indices: 0 ≤ w and w ≤ 16383, per site. -/
def maskCol (sv : IVec S16384 32) : IVec S16384x1 1 :=
  andi (cmpi .sge (idxCol sv) (broadcastInDim S16384x1 ![] bcast_S_S16384x1 (constantI S_ 32 0#32)))
    (cmpi .sle (idxCol sv)
      (broadcastInDim S16384x1 ![0, 1] bcast_S1x1_S16384x1_0_1
        (broadcastInDim S1x1 ![1] bcast_S1_S1x1_1 (constantI S1 32 16383#32))))

theorem maskCol_ix (sv : IVec S16384 32)
    (hr : ∀ i : Fin 16384, -16384 ≤ (sv (ix1 i)).toInt ∧ (sv (ix1 i)).toInt < 16384) (i : Fin 16384) (z : Fin 1) :
    maskCol sv (ix2 i z) = 1#1 := by
  show IntOp.andi (IntOp.cmpi .sge (idxCol sv (ix2 i z)) 0#32)
    (IntOp.cmpi .sle (idxCol sv (ix2 i z)) 16383#32) = 1#1
  rw [idxCol_apply, wrapWord_sge _ (hr i).1 (hr i).2, wrapWord_sle _ (hr i).1 (hr i).2]
  decide

theorem maskCol_one (sv : IVec S16384 32)
    (hr : ∀ i : Fin 16384, -16384 ≤ (sv (ix1 i)).toInt ∧ (sv (ix1 i)).toInt < 16384) (j : S16384x1.Idx) :
    maskCol sv j = 1#1 :=
  (congrArg (maskCol sv) (eq_ix2 j)).trans (maskCol_ix sv hr (j 0) (j 1))

/-- One direction's neighbour array as the program computes it: the gather at the start indices where the range
    test passes, the NaN word elsewhere. -/
def takeCol (X : FVec Ideal S2048x16384 .f32) (sv : IVec S16384 32) : FVec Ideal S2048x16384 .f32 :=
  select
    (broadcastInDim S2048x16384 ![1] bcast_S16384_S2048x16384_1
      (Host.reduce IntOp.andi (maskCol sv) (constantI S_ 1 1#1) reducesTo_S16384x1_S16384_d1 h_S_))
    (Host.gather gather_S2048x16384_S16384x1_S2048x16384_0_1_n_n_1_1_20481 X (idxCol sv))
    (broadcastInDim S2048x16384 ![] bcast_S_S2048x16384 (constant (F := Ideal) S_ .f32 0x7FC00000#32))

/-- With every entry a legal index the range test passes everywhere, and the array holds the operand at the
    neighbour column. -/
theorem takeCol_apply (X : FVec Ideal S2048x16384 .f32) (sv : IVec S16384 32)
    (hr : ∀ i : Fin 16384, -16384 ≤ (sv (ix1 i)).toInt ∧ (sv (ix1 i)).toInt < 16384)
    (n : Fin 2048) (i : Fin 16384) :
    takeCol X sv (ix2 n i) = X (ix2 n (nbrCol (sv (ix1 i)))) := by
  have hred : ∀ j : S16384.Idx,
      Host.reduce IntOp.andi (maskCol sv) (constantI S_ 1 1#1) reducesTo_S16384x1_S16384_d1 h_S_ j = 1#1 := by
    intro j
    rw [Host.reduce_eq_foldl]
    exact foldl_andi_one (maskCol sv) (maskCol_one sv hr) _
  unfold takeCol
  rw [select_apply, row_apply, hred, select_one]
  refine (gatherCol_apply gather_S2048x16384_S16384x1_S2048x16384_0_1_n_n_1_1_20481_wf X (idxCol sv) n i).trans ?_
  refine congrArg (fun q : Fin 16384 => X (ix2 n q)) (Fin.ext ?_)
  show min (idxCol sv (ix2 i 0)).toInt.toNat 16383 = min (wrapWord (sv (ix1 i))).toInt.toNat 16383
  rw [idxCol_apply]

/-- Row 0 of the shift table, as a vector over the sites. -/
def shiftRow0 (x1 : IVec S2x16384 32) : IVec S16384 32 :=
  shapeCast S16384 (extractStridedSlice S1x16384 ![0, 0] x1 slices_S2x16384_S1x16384_0_0) shapeCasts_S1x16384_S16384

/-- Row 1. -/
def shiftRow1 (x1 : IVec S2x16384 32) : IVec S16384 32 :=
  shapeCast S16384 (extractStridedSlice S1x16384 ![1, 0] x1 slices_S2x16384_S1x16384_1_0) shapeCasts_S1x16384_S16384

theorem shiftRow0_apply (x1 : IVec S2x16384 32) (i : Fin 16384) : shiftRow0 x1 (ix1 i) = x1 (ix2 0 i) := by
  unfold shiftRow0
  refine (shapeCast_apply _ shapeCasts_S1x16384_S16384 (ix1 i) (ix2 (0 : Fin 1) i) ?_).trans ?_
  · rw [Shape.rowMajor_val_two, Shape.rowMajor_val_one]
    show 0 * 16384 + i.val = i.val
    omega
  · exact extractStridedSlice_apply ![0, 0] x1 slices_S2x16384_S1x16384_0_0 (ix2 (0 : Fin 1) i) (ix2 (0 : Fin 2) i)
      (fun a => match a with
        | ⟨0, _⟩ => by show (0 : Nat) = 0 + 0; omega
        | ⟨1, _⟩ => by show i.val = 0 + i.val; omega)

theorem shiftRow1_apply (x1 : IVec S2x16384 32) (i : Fin 16384) : shiftRow1 x1 (ix1 i) = x1 (ix2 1 i) := by
  unfold shiftRow1
  refine (shapeCast_apply _ shapeCasts_S1x16384_S16384 (ix1 i) (ix2 (0 : Fin 1) i) ?_).trans ?_
  · rw [Shape.rowMajor_val_two, Shape.rowMajor_val_one]
    show 0 * 16384 + i.val = i.val
    omega
  · exact extractStridedSlice_apply ![1, 0] x1 slices_S2x16384_S1x16384_1_0 (ix2 (0 : Fin 1) i) (ix2 (1 : Fin 2) i)
      (fun a => match a with
        | ⟨0, _⟩ => by show (1 : Nat) = 1 + 0; omega
        | ⟨1, _⟩ => by show i.val = 0 + i.val; omega)

/-! ## The four gathered arrays -/

set_option maxRecDepth 65536 in
theorem nb_polar0 (c : Dev nD) :
    (V m c main_v9 : S2048x16384.Idx → EReal) = takeCol (polar m c) (shiftRow0 (shift m c)) := by
    dsimp only [Gen.V]
    simp only [hostOps0, hostOps0_1, hostOps0_2, hostOps0_3, hostOps0_4, List.flatten_cons, List.flatten_nil, List.append_nil,
      List.cons_append, List.nil_append]
    after_results_simp
    rfl

set_option maxRecDepth 65536 in
theorem nb_polar1 (c : Dev nD) :
    (V m c main_v10 : S2048x16384.Idx → EReal) = takeCol (polar m c) (shiftRow1 (shift m c)) := by
    dsimp only [Gen.V]
    simp only [hostOps0, hostOps0_1, hostOps0_2, hostOps0_3, hostOps0_4, List.flatten_cons, List.flatten_nil, List.append_nil,
      List.cons_append, List.nil_append]
    after_results_simp
    rfl

set_option maxRecDepth 65536 in
theorem nb_azim0 (c : Dev nD) :
    (V m c main_v11 : S2048x16384.Idx → EReal) = takeCol (azim m c) (shiftRow0 (shift m c)) := by
    dsimp only [Gen.V]
    simp only [hostOps0, hostOps0_1, hostOps0_2, hostOps0_3, hostOps0_4, List.flatten_cons, List.flatten_nil, List.append_nil,
      List.cons_append, List.nil_append]
    after_results_simp
    rfl

set_option maxRecDepth 65536 in
theorem nb_azim1 (c : Dev nD) :
    (V m c main_v12 : S2048x16384.Idx → EReal) = takeCol (azim m c) (shiftRow1 (shift m c)) := by
    dsimp only [Gen.V]
    simp only [hostOps0, hostOps0_1, hostOps0_2, hostOps0_3, hostOps0_4, List.flatten_cons, List.flatten_nil, List.append_nil,
      List.cons_append, List.nil_append]
    after_results_simp
    rfl

/-- With every shift entry a legal index, each gathered array holds the angle at the neighbour column. -/
theorem arr_nb (c : Dev nD)
    (hr : ∀ (k : Fin 2) (i : Fin 16384), -16384 ≤ (shift m c (ix2 k i)).toInt ∧ (shift m c (ix2 k i)).toInt < 16384)
    (n : Fin 2048) (i : Fin 16384) :
    V m c main_v9 (ix2 n i) = polar m c (ix2 n (nbrCol (shift m c (ix2 0 i))))
    ∧ V m c main_v10 (ix2 n i) = polar m c (ix2 n (nbrCol (shift m c (ix2 1 i))))
    ∧ V m c main_v11 (ix2 n i) = azim m c (ix2 n (nbrCol (shift m c (ix2 0 i))))
    ∧ V m c main_v12 (ix2 n i) = azim m c (ix2 n (nbrCol (shift m c (ix2 1 i)))) := by
  -- each row of the table is in range, since every entry is
  have h0 : ∀ i : Fin 16384, -16384 ≤ (shiftRow0 (shift m c) (ix1 i)).toInt
      ∧ (shiftRow0 (shift m c) (ix1 i)).toInt < 16384 := fun i => by
    rw [shiftRow0_apply]; exact hr 0 i
  have h1 : ∀ i : Fin 16384, -16384 ≤ (shiftRow1 (shift m c) (ix1 i)).toInt
      ∧ (shiftRow1 (shift m c) (ix1 i)).toInt < 16384 := fun i => by
    rw [shiftRow1_apply]; exact hr 1 i
  refine ⟨?_, ?_, ?_, ?_⟩
  · refine (congrFun (nb_polar0 m c) (ix2 n i)).trans ((takeCol_apply _ _ h0 n i).trans ?_)
    rw [shiftRow0_apply]
  · refine (congrFun (nb_polar1 m c) (ix2 n i)).trans ((takeCol_apply _ _ h1 n i).trans ?_)
    rw [shiftRow1_apply]
  · refine (congrFun (nb_azim0 m c) (ix2 n i)).trans ((takeCol_apply _ _ h0 n i).trans ?_)
    rw [shiftRow0_apply]
  · refine (congrFun (nb_azim1 m c) (ix2 n i)).trans ((takeCol_apply _ _ h1 n i).trans ?_)
    rw [shiftRow1_apply]

end Cert.Lattice.KernelSide

end
-- ==== Proof.Accumulate.lean ====
/-
  The kernel's result array. Point `t` of the 8 × 16 grid works on sample rows 256·(t / 16) … + 255 and on lattice
  columns 1024·(t mod 16) … + 1023. Its six input blocks are the polar and azimuth arrays and their four gathered
  neighbour arrays at those rows and columns, so the lane sum it adds to row `y` of the accumulator is the tile sum of
  the two directions' bonds of sample 256·(t / 16) + y over tile t mod 16. By induction on the point the accumulator
  after point `t` holds the sum of the tile sums of tiles 0 … t mod 16 (the first tile of a row block starts from the
  zero column). At the last tile the output block is the word -1.0 times that, the sample's energy; those points'
  blocks tile the result column, so the result array is the energy of every sample.
-/
import proofs.«400620_j83665962926683_1_alg».proof.Proof.Step
import proofs.«400620_j83665962926683_1_alg».proof.Proof.Arrays
import proofs.«400620_j83665962926683_1_alg».proof.Proof.Gen.KernelIdeal.Value
import proofs.«400620_j83665962926683_1_alg».proof.Proof.Energy

set_option maxRecDepth 16384

noncomputable section

open scoped BigOperators

namespace Cert.Lattice.KernelSide

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## Where a point works -/

/-- The index maps over the grid: every input window's block index is (t / 16, t mod 16), the output's (t / 16, 0). -/
theorem idx_facts : ∀ t : Fin cfg0.N,
    (win0_0.index t (0 : Fin 2) = t.val / 16 ∧ win0_0.index t (1 : Fin 2) = t.val % 16)
    ∧ (win0_1.index t (0 : Fin 2) = t.val / 16 ∧ win0_1.index t (1 : Fin 2) = t.val % 16)
    ∧ (win0_2.index t (0 : Fin 2) = t.val / 16 ∧ win0_2.index t (1 : Fin 2) = t.val % 16)
    ∧ (win0_3.index t (0 : Fin 2) = t.val / 16 ∧ win0_3.index t (1 : Fin 2) = t.val % 16)
    ∧ (win0_4.index t (0 : Fin 2) = t.val / 16 ∧ win0_4.index t (1 : Fin 2) = t.val % 16)
    ∧ (win0_5.index t (0 : Fin 2) = t.val / 16 ∧ win0_5.index t (1 : Fin 2) = t.val % 16)
    ∧ (win0_6.index t (0 : Fin 2) = t.val / 16 ∧ win0_6.index t (1 : Fin 2) = 0) :=
  (by decide +kernel : ∀ t : Fin grid0.N, _)

/-- The sample of local row `y` at point `n`. -/
def rowAt (n : ℕ) (hn : n < 128) (y : Fin 256) : Fin 2048 := ⟨256 * (n / 16) + y.val, by omega⟩
/-- The lattice column of lane `l` at point `n`. -/
def colAt (n : ℕ) (l : Fin 1024) : Fin 16384 := ⟨1024 * (n % 16) + l.val, by omega⟩

/-- Window 0's block at a point, entry by entry: the array at the point's rows and columns. -/
theorem blk0_apply (c : Dev nD) (t : Fin cfg0.N) (y : Fin 256) (l : Fin 1024) :
    (iblk m c 0 t : FVec Ideal S256x1024 .f32) (ix2 y l)
      = V m c main_v2 (ix2 (rowAt t.val (lt_of_lt_of_eq t.isLt N_0) y) (colAt t.val l)) := by
  obtain ⟨⟨e0, e1⟩, -, -, -, -, -, -⟩ := idx_facts t
  show V m c main_v2 (((cfg0.win 0).blk t).view.emb (ix2 y l)) = _
  refine congrArg (V m c main_v2) ?_
  funext a
  apply Fin.ext
  match a with
  | ⟨0, _⟩ => show win0_0.index t (0 : Fin 2) * 256 + 1 * y.val = 256 * (t.val / 16) + y.val; omega
  | ⟨1, _⟩ => show win0_0.index t (1 : Fin 2) * 1024 + 1 * l.val = 1024 * (t.val % 16) + l.val; omega

/-- Window 1's block at a point, entry by entry: the array at the point's rows and columns. -/
theorem blk1_apply (c : Dev nD) (t : Fin cfg0.N) (y : Fin 256) (l : Fin 1024) :
    (iblk m c 1 t : FVec Ideal S256x1024 .f32) (ix2 y l)
      = V m c main_v4 (ix2 (rowAt t.val (lt_of_lt_of_eq t.isLt N_0) y) (colAt t.val l)) := by
  obtain ⟨-, ⟨e0, e1⟩, -, -, -, -, -⟩ := idx_facts t
  show V m c main_v4 (((cfg0.win 1).blk t).view.emb (ix2 y l)) = _
  refine congrArg (V m c main_v4) ?_
  funext a
  apply Fin.ext
  match a with
  | ⟨0, _⟩ => show win0_1.index t (0 : Fin 2) * 256 + 1 * y.val = 256 * (t.val / 16) + y.val; omega
  | ⟨1, _⟩ => show win0_1.index t (1 : Fin 2) * 1024 + 1 * l.val = 1024 * (t.val % 16) + l.val; omega

/-- Window 2's block at a point, entry by entry: the array at the point's rows and columns. -/
theorem blk2_apply (c : Dev nD) (t : Fin cfg0.N) (y : Fin 256) (l : Fin 1024) :
    (iblk m c 2 t : FVec Ideal S256x1024 .f32) (ix2 y l)
      = V m c main_v9 (ix2 (rowAt t.val (lt_of_lt_of_eq t.isLt N_0) y) (colAt t.val l)) := by
  obtain ⟨-, -, ⟨e0, e1⟩, -, -, -, -⟩ := idx_facts t
  show V m c main_v9 (((cfg0.win 2).blk t).view.emb (ix2 y l)) = _
  refine congrArg (V m c main_v9) ?_
  funext a
  apply Fin.ext
  match a with
  | ⟨0, _⟩ => show win0_2.index t (0 : Fin 2) * 256 + 1 * y.val = 256 * (t.val / 16) + y.val; omega
  | ⟨1, _⟩ => show win0_2.index t (1 : Fin 2) * 1024 + 1 * l.val = 1024 * (t.val % 16) + l.val; omega

/-- Window 3's block at a point, entry by entry: the array at the point's rows and columns. -/
theorem blk3_apply (c : Dev nD) (t : Fin cfg0.N) (y : Fin 256) (l : Fin 1024) :
    (iblk m c 3 t : FVec Ideal S256x1024 .f32) (ix2 y l)
      = V m c main_v10 (ix2 (rowAt t.val (lt_of_lt_of_eq t.isLt N_0) y) (colAt t.val l)) := by
  obtain ⟨-, -, -, ⟨e0, e1⟩, -, -, -⟩ := idx_facts t
  show V m c main_v10 (((cfg0.win 3).blk t).view.emb (ix2 y l)) = _
  refine congrArg (V m c main_v10) ?_
  funext a
  apply Fin.ext
  match a with
  | ⟨0, _⟩ => show win0_3.index t (0 : Fin 2) * 256 + 1 * y.val = 256 * (t.val / 16) + y.val; omega
  | ⟨1, _⟩ => show win0_3.index t (1 : Fin 2) * 1024 + 1 * l.val = 1024 * (t.val % 16) + l.val; omega

/-- Window 4's block at a point, entry by entry: the array at the point's rows and columns. -/
theorem blk4_apply (c : Dev nD) (t : Fin cfg0.N) (y : Fin 256) (l : Fin 1024) :
    (iblk m c 4 t : FVec Ideal S256x1024 .f32) (ix2 y l)
      = V m c main_v11 (ix2 (rowAt t.val (lt_of_lt_of_eq t.isLt N_0) y) (colAt t.val l)) := by
  obtain ⟨-, -, -, -, ⟨e0, e1⟩, -, -⟩ := idx_facts t
  show V m c main_v11 (((cfg0.win 4).blk t).view.emb (ix2 y l)) = _
  refine congrArg (V m c main_v11) ?_
  funext a
  apply Fin.ext
  match a with
  | ⟨0, _⟩ => show win0_4.index t (0 : Fin 2) * 256 + 1 * y.val = 256 * (t.val / 16) + y.val; omega
  | ⟨1, _⟩ => show win0_4.index t (1 : Fin 2) * 1024 + 1 * l.val = 1024 * (t.val % 16) + l.val; omega

/-- Window 5's block at a point, entry by entry: the array at the point's rows and columns. -/
theorem blk5_apply (c : Dev nD) (t : Fin cfg0.N) (y : Fin 256) (l : Fin 1024) :
    (iblk m c 5 t : FVec Ideal S256x1024 .f32) (ix2 y l)
      = V m c main_v12 (ix2 (rowAt t.val (lt_of_lt_of_eq t.isLt N_0) y) (colAt t.val l)) := by
  obtain ⟨-, -, -, -, -, ⟨e0, e1⟩, -⟩ := idx_facts t
  show V m c main_v12 (((cfg0.win 5).blk t).view.emb (ix2 y l)) = _
  refine congrArg (V m c main_v12) ?_
  funext a
  apply Fin.ext
  match a with
  | ⟨0, _⟩ => show win0_5.index t (0 : Fin 2) * 256 + 1 * y.val = 256 * (t.val / 16) + y.val; omega
  | ⟨1, _⟩ => show win0_5.index t (1 : Fin 2) * 1024 + 1 * l.val = 1024 * (t.val % 16) + l.val; omega

/-! ## What a point adds -/

/-- Every shift entry a legal index. -/
abbrev InRange (c : Dev nD) : Prop :=
  ∀ (k : Fin 2) (i : Fin 16384), -16384 ≤ (shift m c (ix2 k i)).toInt ∧ (shift m c (ix2 k i)).toInt < 16384

/-- The two directions' bond terms of a point's blocks at (row, lane) are the sample's bonds at the point's column. -/
theorem bond_at (c : Dev nD) (hr : InRange m c) (t : Fin cfg0.N) (y : Fin 256) (l : Fin 1024) :
    blockBond (iblk m c 2 t) (iblk m c 0 t) (iblk m c 4 t) (iblk m c 1 t) (ix2 y l)
        = bond (polar m c) (azim m c) (shift m c) (rowAt t.val (lt_of_lt_of_eq t.isLt N_0) y) 0 (colAt t.val l)
    ∧ blockBond (iblk m c 3 t) (iblk m c 0 t) (iblk m c 5 t) (iblk m c 1 t) (ix2 y l)
        = bond (polar m c) (azim m c) (shift m c) (rowAt t.val (lt_of_lt_of_eq t.isLt N_0) y) 1 (colAt t.val l) := by
  obtain ⟨h9, h10, h11, h12⟩ := arr_nb m c hr (rowAt t.val (lt_of_lt_of_eq t.isLt N_0) y) (colAt t.val l)
  unfold blockBond bond
  rw [blk0_apply m c t y l, blk1_apply m c t y l, blk2_apply m c t y l, blk3_apply m c t y l, blk4_apply m c t y l,
    blk5_apply m c t y l, h9, h10, h11, h12, arr_polar, arr_azim]
  exact ⟨rfl, rfl⟩

/-- The lane sum a point adds to row `y` is the sample's tile sum over the point's tile. -/
theorem pointSum (c : Dev nD) (hr : InRange m c) (t : Fin cfg0.N) (y : Fin 256) :
    ∑ l : Fin 1024, (blockBond (iblk m c 2 t) (iblk m c 0 t) (iblk m c 4 t) (iblk m c 1 t) (ix2 y l)
        + blockBond (iblk m c 3 t) (iblk m c 0 t) (iblk m c 5 t) (iblk m c 1 t) (ix2 y l))
      = tileSumN (polar m c) (azim m c) (shift m c) (rowAt t.val (lt_of_lt_of_eq t.isLt N_0) y) (t.val % 16) := by
  unfold tileSumN
  rw [dif_pos (Nat.mod_lt _ (by decide))]
  unfold tileSum
  refine Finset.sum_congr rfl fun l _ => ?_
  obtain ⟨b0, b1⟩ := bond_at m c hr t y l
  rw [b0, b1]
  rfl

/-! ## The accumulator, point by point -/

/-- The accumulator after a point is the step of the accumulator before it: the zero column at the first tile of a
    row block, else what the point before left. -/
theorem scratch_step (c : Dev nD) (t : Fin cfg0.N) :
    (outsAt0 m c t.val t.isLt).2
      = step (F := Ideal) (iblk m c 0 t) (iblk m c 1 t) (iblk m c 2 t) (iblk m c 3 t) (iblk m c 4 t) (iblk m c 5 t)
          (if t.val % 16 = 0 then (k0_pay3 (F := Ideal))
            else (outsAt0 m c (t.val - 1) (Nat.lt_of_le_of_lt (Nat.sub_le _ _) t.isLt)).2) := by
  have hN : t.val < 128 := lt_of_lt_of_eq t.isLt N_0
  by_cases h0 : t.val % 16 = 0
  · have h1 : ¬t.val % 16 = 15 := by omega
    rw [outsAt0_A m c t h0 h1, if_pos h0]
    dsimp only
    exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · rw [if_neg h0]
    by_cases h1 : t.val % 16 = 15
    · rw [outsAt0_C m c t h0 h1]
      dsimp only
      exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) _
    · rw [outsAt0_B m c t h0 h1]
      dsimp only
      exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) _

/-- THE INVARIANT: after point `n` row `y` of the accumulator is the sum of the sample's tile sums over tiles
    0 … n mod 16. -/
theorem scratch_inv (c : Dev nD) (hr : InRange m c) :
    ∀ (n : ℕ) (h : n < cfg0.N) (y : Fin 256),
      (outsAt0 m c n h).2 (ix2 y 0)
        = ∑ j ∈ Finset.range (n % 16 + 1),
            tileSumN (polar m c) (azim m c) (shift m c) (rowAt n (lt_of_lt_of_eq h N_0) y) j := by
  intro n
  induction n with
  | zero =>
    intro h y
    have hs := congrFun (scratch_step m c ⟨0, h⟩) (ix2 y 0)
    rw [step_apply, pointSum m c hr ⟨0, h⟩ y] at hs
    refine hs.trans ?_
    show (if (0 : ℕ) % 16 = 0 then (k0_pay3 (F := Ideal)) else _) (ix2 y 0) + _ = _
    rw [if_pos rfl, zeroCol_apply, zero_add]
    show tileSumN _ _ _ _ 0 = ∑ j ∈ Finset.range 1, _
    rw [Finset.sum_range_one]
  | succ k ih =>
    intro h y
    have hN : k + 1 < 128 := lt_of_lt_of_eq h N_0
    have hs := congrFun (scratch_step m c ⟨k + 1, h⟩) (ix2 y 0)
    rw [step_apply, pointSum m c hr ⟨k + 1, h⟩ y] at hs
    refine hs.trans ?_
    by_cases h0 : (k + 1) % 16 = 0
    · show (if (k + 1) % 16 = 0 then (k0_pay3 (F := Ideal)) else _) (ix2 y 0) + _ = _
      rw [if_pos h0, zeroCol_apply, zero_add]
      show tileSumN _ _ _ _ ((k + 1) % 16) = ∑ j ∈ Finset.range ((k + 1) % 16 + 1), _
      rw [h0, Finset.sum_range_one]
    · show (if (k + 1) % 16 = 0 then (k0_pay3 (F := Ideal)) else (outsAt0 m c k _).2) (ix2 y 0) + _ = _
      rw [if_neg h0, ih (Nat.lt_of_succ_lt h) y]
      have e1 : (k + 1) / 16 = k / 16 := by omega
      have e2 : (k + 1) % 16 = k % 16 + 1 := by omega
      have er : rowAt (k + 1) hN y = rowAt k (by omega) y :=
        Fin.ext (by show 256 * ((k + 1) / 16) + y.val = 256 * (k / 16) + y.val; rw [e1])
      show _ + tileSumN _ _ _ (rowAt (k + 1) hN y) ((k + 1) % 16)
        = ∑ j ∈ Finset.range ((k + 1) % 16 + 1), tileSumN _ _ _ (rowAt (k + 1) hN y) j
      rw [er, e2, Finset.sum_range_succ _ (k % 16 + 1)]

/-! ## The result array -/

/-- At the last tile of a row block the output block holds the sample's energy. -/
theorem out_at (c : Dev nD) (hr : InRange m c) (t : Fin cfg0.N) (h15 : t.val % 16 = 15) (y : Fin 256) :
    (outsAt0 m c t.val t.isLt).1 (ix2 y 0)
      = energy (polar m c) (azim m c) (shift m c) (ix2 (rowAt t.val (lt_of_lt_of_eq t.isLt N_0) y) 0) := by
  have h0 : ¬t.val % 16 = 0 := by omega
  have e1 : (outsAt0 m c t.val t.isLt).1 = k0_pay2 (F := Ideal) ((outsAt0 m c t.val t.isLt).2) := by
    rw [outsAt0_C m c t h0 h15]
    dsimp only
    exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) _).trans
      (congrArg (k0_pay2 (F := Ideal)) (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) _).symm)
  rw [e1, scaled_apply, scratch_inv m c hr t.val t.isLt y, h15]
  exact tiles_eq_energy _ _ _ _

/-- What a flushing point writes back is its block of the energy column. -/
theorem flushed_eq (c : Dev nD) (hr : InRange m c) (t : Fin cfg0.N) (hf : (cfg0.win 6).flush t = true) :
    (dats m 0 c).flushed 6 t
      = ((cfg0.win 6).blk t).view.read (Elt Ideal) (energy (polar m c) (azim m c) (shift m c)) := by
  have h15 : t.val % 16 = 15 := (flush0_6 t).mp hf
  obtain ⟨-, -, -, -, -, -, e0, e1⟩ := idx_facts t
  rw [Cert.KernelIdeal.Value.flushed6]
  have key : ∀ y : Fin 256,
      (outsAt0 m c t.val t.isLt).1 (ix2 y 0)
        = energy (polar m c) (azim m c) (shift m c) (((cfg0.win 6).blk t).view.emb (ix2 y 0)) := fun y => by
    rw [out_at m c hr t h15 y]
    refine congrArg (energy (polar m c) (azim m c) (shift m c)) ?_
    funext a
    apply Fin.ext
    match a with
    | ⟨0, _⟩ => show 256 * (t.val / 16) + y.val = win0_6.index t (0 : Fin 2) * 256 + 1 * y.val; omega
    | ⟨1, _⟩ => show 0 = win0_6.index t (1 : Fin 2) * 1 + 1 * 0; omega
  funext j
  have hj : j = ix2 (j 0) 0 := by
    funext a
    match a with
    | ⟨0, _⟩ => rfl
    | ⟨1, _⟩ => exact Fin.ext (by have h : (j 1).val < 1 := (j 1).isLt; show (j 1).val = 0; omega)
  rw [hj]
  exact key (j 0)

/-- An index of the result column is in point `t`'s block iff its row is among the point's 256 rows. -/
theorem mem_blk (t : Fin cfg0.N) (i : SOut.Idx) :
    i ∈ ((cfg0.win 6).blk t).view.set
      ↔ ∀ a : Fin 2, win0_6.index t a * S256x1.size a ≤ (i a).val ∧ (i a).val < win0_6.index t a * S256x1.size a + S256x1.size a := by
  show i ∈ ((View.whole main_v13).slice (win0_6.rect t)).set ↔ _
  rw [View.set_slice_whole, Rect.mem_set_unit]
  exact Iff.rfl

/-- Every row of the result column is in the block of the last tile of its row block. -/
theorem cover (i : SOut.Idx) :
    ∃ t : Fin cfg0.N, (cfg0.win 6).flush t = true ∧ i ∈ ((cfg0.win 6).blk t).view.set := by
  have hi0 : (i 0).val < 2048 := (i 0).isLt
  have hi1 : (i 1).val < 1 := (i 1).isLt
  have hN : cfg0.N = 128 := N_0
  have ht : 16 * ((i 0).val / 256) + 15 < cfg0.N := by rw [hN]; omega
  refine ⟨⟨16 * ((i 0).val / 256) + 15, ht⟩, (flush0_6 _).mpr (by show (16 * ((i 0).val / 256) + 15) % 16 = 15; omega), ?_⟩
  obtain ⟨-, -, -, -, -, -, e0, e1⟩ := idx_facts ⟨16 * ((i 0).val / 256) + 15, ht⟩
  rw [mem_blk]
  intro a
  match a with
  | ⟨0, _⟩ =>
    show win0_6.index ⟨16 * ((i 0).val / 256) + 15, ht⟩ (0 : Fin 2) * 256 ≤ (i 0).val
      ∧ (i 0).val < win0_6.index ⟨16 * ((i 0).val / 256) + 15, ht⟩ (0 : Fin 2) * 256 + 256
    rw [e0]
    show (16 * ((i 0).val / 256) + 15) / 16 * 256 ≤ (i 0).val ∧ (i 0).val < (16 * ((i 0).val / 256) + 15) / 16 * 256 + 256
    omega
  | ⟨1, _⟩ =>
    show win0_6.index ⟨16 * ((i 0).val / 256) + 15, ht⟩ (1 : Fin 2) * 1 ≤ (i 1).val
      ∧ (i 1).val < win0_6.index ⟨16 * ((i 0).val / 256) + 15, ht⟩ (1 : Fin 2) * 1 + 1
    rw [e1]
    omega

/-- The result array after the run: the energy of every sample. -/
theorem final (c : Dev nD) (hr : InRange m c) :
    (dats m 0 c).arrAt 6 cfg0.N = energy (polar m c) (azim m c) (shift m c) :=
  (dats m 0 c).arrAt_eq_of_cover 6 (energy (polar m c) (azim m c) (shift m c)) (fun t hf => flushed_eq m c hr t hf) cover

/-- The kernel's run, read: the result at the energy, the arguments unchanged. -/
theorem run (hr : ∀ c : Dev nD, InRange m c) :
    θ_run defs (onTc (τ := τ) (main (F := Ideal))) ⟨m, fun _ => 0, ρ⟩ fun r => ∀ c : Dev nD,
      r.2.mem ((c : Thread nD τ).loc main_v13) = energy (polar m c) (azim m c) (shift m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hr c)), (h c).2⟩)
    (Cert.KernelIdeal.Value.run_blocks m ρ)

end Cert.Lattice.KernelSide

end
-- ==== Proof.lean ====
/-
  The lattice spin energy: for each of 2048 samples, minus the sum over both lattice directions and all 16384 sites of

      cos θ' · cos θ + (sin θ' · sin θ) · cos (φ' − φ),

  where (θ, φ) are a site's polar and azimuth angles and (θ', φ') its neighbour's, the neighbour's column read off
  the shift table.

  The reference gathers cos θ, sin θ and φ at the table (a negative entry wrapped once, the gather clamping) and sums
  the bonds over (direction, site). The kernel gathers the raw angles on the host, once per direction, with a range
  test that puts a not-a-number where the wrapped entry is out of range; its one pipelined call walks the sites in 16
  tiles of 1024, applies the trigonometry to the gathered angles, adds the two directions lane by lane, sums a tile's
  lanes and accumulates the tiles in a scratch column, writing -1.0 times the column at a row block's last tile.

  Where a shift entry is not a legal index of the lattice axis (outside [-16384, 16384)) the two differ — the
  reference reads a clamped site, the kernel its fill value — so the claim is stated on the domain where every entry
  is one (`Domain.lean` reads that off the precondition). There the kernel's range test passes everywhere
  (`Neighbour.lean`), both programs read the same neighbour column (`Arrays.lean`, `RefValue.lean`), cosine and
  sine of a gathered angle are the gathered cosine and sine, and the kernel's tile-by-tile accumulation
  (`Cases.lean`, `Step.lean`, `Accumulate.lean`) is the reference's one sum regrouped (`Energy.lean`): addition
  on the extended reals is commutative and associative, and nothing else is used.

  The kernel's idealization rewrote nothing, so `preserves` is trivial; the frames are the generated ones, the
  reference's its generated run with the result dropped.
-/
import proofs.«400620_j83665962926683_1_alg».proof.Defs
import proofs.«400620_j83665962926683_1_alg».proof.Proof.Gen.Kernel
import proofs.«400620_j83665962926683_1_alg».proof.Proof.Gen.Kernel.Skeleton
import proofs.«400620_j83665962926683_1_alg».proof.Proof.Gen.Kernel.Launch
import proofs.«400620_j83665962926683_1_alg».proof.Proof.Gen.Kernel.Points
import proofs.«400620_j83665962926683_1_alg».proof.Proof.Gen.Kernel.Frame
import proofs.«400620_j83665962926683_1_alg».proof.Proof.Gen.KernelIdeal
import proofs.«400620_j83665962926683_1_alg».proof.Proof.Gen.KernelIdeal.Skeleton
import proofs.«400620_j83665962926683_1_alg».proof.Proof.Gen.KernelIdeal.Launch
import proofs.«400620_j83665962926683_1_alg».proof.Proof.Gen.KernelIdeal.Points
import proofs.«400620_j83665962926683_1_alg».proof.Proof.Gen.KernelIdeal.Frame
import proofs.«400620_j83665962926683_1_alg».proof.Proof.Gen.ReferenceIdeal
import proofs.«400620_j83665962926683_1_alg».proof.Proof.Gen.Pre_finite_inputs
import proofs.«400620_j83665962926683_1_alg».proof.Proof.Gen.KernelIdeal.Value
import proofs.«400620_j83665962926683_1_alg».proof.Proof.Gen.ReferenceIdeal.Run
import proofs.«400620_j83665962926683_1_alg».proof.Proof.Gen.ReferenceIdeal.Read
import proofs.«400620_j83665962926683_1_alg».proof.Proof.Domain
import proofs.«400620_j83665962926683_1_alg».proof.Proof.RefValue
import proofs.«400620_j83665962926683_1_alg».proof.Proof.Accumulate
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the two runs end with one result: the energy of every sample, over the polar and azimuth
    arrays sliced out of the state and the shift table — the kernel's accumulated tiles and the reference's sum. -/
theorem algebraic : Cert.algebraic_KernelIdeal_ReferenceIdeal := by
  intro m ρ m' ρ' hpre hagree
  have hr : ∀ c : Dev Cert.KernelIdeal.nD, Cert.Lattice.KernelSide.InRange m c := fun c k i =>
    Cert.Lattice.Domain.shift_range (F := Ideal) _ _ (hpre c) k i
  refine ⟨fun c => Cert.Lattice.energy (Cert.Lattice.KernelSide.polar m c) (Cert.Lattice.KernelSide.azim m c)
    (Cert.Lattice.KernelSide.shift m c), Cert.Lattice.KernelSide.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v43_eq _ _).trans (Cert.Lattice.RefSide.value_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
